-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16777216 : Shape := ⟨2, ![1, 16777216]⟩
abbrev S_ : Shape := ⟨0, ![]⟩

class Facts : Prop where
  bcast_S_S1x16777216 : S_.BroadcastsInDim S1x16777216 (![] : Fin 0 → Fin S1x16777216.rank)
  reducesTo_S1x16777216_S_d0_1 : S1x16777216.ReducesTo [0, 1] S_
  h_S_ : 0 < S_.numel

variable [Facts]

def fn {F : FTy → Type} [FloatOps F] (main_arg0 : FVec F S1x16777216 .f32) (main_arg1 : FVec F S1x16777216 .f32) (main_arg2 : FVec F S1x16777216 .f32) : IVec S_ 1 :=
  let main_v0 : FVec F S1x16777216 .f32 := Host.absf main_arg0
  let main_cst : FVec F S_ .f32 := constant S_ .f32 0x7F800000#32
  let main_v1 : FVec F S1x16777216 .f32 := broadcastInDim S1x16777216 ![] bcast_S_S1x16777216 main_cst
  let main_v2 : IVec S1x16777216 1 := cmpf .olt main_v0 main_v1
  let main_c : IVec S_ 1 := constantI S_ 1 1#1
  let main_v3 : IVec S_ 1 := (fun x v => Host.reduce IntOp.andi x v reducesTo_S1x16777216_S_d0_1 h_S_) main_v2 main_c
  let main_v4 : FVec F S1x16777216 .f32 := Host.absf main_arg1
  let main_cst_0 : FVec F S_ .f32 := constant S_ .f32 0x7F800000#32
  let main_v5 : FVec F S1x16777216 .f32 := broadcastInDim S1x16777216 ![] bcast_S_S1x16777216 main_cst_0
  let main_v6 : IVec S1x16777216 1 := cmpf .olt main_v4 main_v5
  let main_c_1 : IVec S_ 1 := constantI S_ 1 1#1
  let main_v7 : IVec S_ 1 := (fun x v => Host.reduce IntOp.andi x v reducesTo_S1x16777216_S_d0_1 h_S_) main_v6 main_c_1
  let main_v8 : IVec S_ 1 := andi main_v3 main_v7
  let main_v9 : FVec F S1x16777216 .f32 := Host.absf main_arg2
  let main_cst_2 : FVec F S_ .f32 := constant S_ .f32 0x7F800000#32
  let main_v10 : FVec F S1x16777216 .f32 := broadcastInDim S1x16777216 ![] bcast_S_S1x16777216 main_cst_2
  let main_v11 : IVec S1x16777216 1 := cmpf .olt main_v9 main_v10
  let main_c_3 : IVec S_ 1 := constantI S_ 1 1#1
  let main_v12 : IVec S_ 1 := (fun x v => Host.reduce IntOp.andi x v reducesTo_S1x16777216_S_d0_1 h_S_) main_v11 main_c_3
  let main_v13 : IVec S_ 1 := andi main_v8 main_v12
  main_v13
-- ==== Kernel.lean ====
abbrev S1x16777216 : Shape := ⟨2, ![1, 16777216]⟩
abbrev S131072x128 : Shape := ⟨2, ![131072, 128]⟩
abbrev S4096x128 : Shape := ⟨2, ![4096, 128]⟩

abbrev nBuf : Space → Nat
  | .hbm => 12
  | .vmem => 12
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S131072x128, .f32⟩
  | .hbm, ⟨4, _⟩ => ⟨S131072x128, .f32⟩
  | .hbm, ⟨5, _⟩ => ⟨S131072x128, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S1x16777216, .f32⟩
  | .hbm, ⟨10, _⟩ => ⟨S1x16777216, .f32⟩
  | .hbm, ⟨11, _⟩ => ⟨S1x16777216, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | _, _ => ⟨S1x16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x16777216_S131072x128 : S1x16777216.ShapeCasts S131072x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S131072x128_S1x16777216 : S131072x128.ShapeCasts S1x16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S131072x128.size a
  hwx0_5 : ∀ i : grid0.Coords, EltTy.bits .f32 = 32 ∨ (Rect.block (s := S131072x128) S4096x128.size (cc0_transform_5 i) (hinb0_5 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x16777216 : Shape := ⟨2, ![1, 16777216]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S_, .f32⟩
  | .hbm, ⟨4, _⟩ => ⟨S1x16777216, .f32⟩
  | .hbm, ⟨5, _⟩ => ⟨S1x16777216, .i1⟩
  | .hbm, ⟨6, _⟩ => ⟨S1x16777216, .f32⟩
  | .hbm, ⟨7, _⟩ => ⟨S_, .f32⟩
  | .hbm, ⟨8, _⟩ => ⟨S1x16777216, .f32⟩
  | .hbm, ⟨9, _⟩ => ⟨S1x16777216, .f32⟩
  | .hbm, ⟨10, _⟩ => ⟨S1x16777216, .f32⟩
  | .hbm, ⟨11, _⟩ => ⟨S1x16777216, .f32⟩
  | .hbm, ⟨12, _⟩ => ⟨S1x16777216, .f32⟩
  | .hbm, ⟨13, _⟩ => ⟨S_, .f32⟩
  | .hbm, ⟨14, _⟩ => ⟨S1x16777216, .f32⟩
  | .hbm, ⟨15, _⟩ => ⟨S1x16777216, .f32⟩
  | .hbm, ⟨16, _⟩ => ⟨S_, .f32⟩
  | .hbm, ⟨17, _⟩ => ⟨S1x16777216, .f32⟩
  | .hbm, ⟨18, _⟩ => ⟨S1x16777216, .f32⟩
  | .hbm, ⟨19, _⟩ => ⟨S_, .f32⟩
  | .hbm, ⟨20, _⟩ => ⟨S1x16777216, .f32⟩
  | .hbm, ⟨21, _⟩ => ⟨S1x16777216, .f32⟩
  | .hbm, ⟨22, _⟩ => ⟨S1x16777216, .f32⟩
  | .hbm, ⟨23, _⟩ => ⟨S_, .f32⟩
  | .hbm, ⟨24, _⟩ => ⟨S1x16777216, .f32⟩
  | .hbm, ⟨25, _⟩ => ⟨S1x16777216, .i1⟩
  | .hbm, ⟨26, _⟩ => ⟨S1x16777216, .f32⟩
  | .hbm, ⟨27, _⟩ => ⟨S_, .f32⟩
  | .hbm, ⟨28, _⟩ => ⟨S1x16777216, .f32⟩
  | .hbm, ⟨29, _⟩ => ⟨S1x16777216, .f32⟩
  | .hbm, ⟨30, _⟩ => ⟨S1x16777216, .f32⟩
  | .hbm, ⟨31, _⟩ => ⟨S1x16777216, .f32⟩
  | .hbm, ⟨32, _⟩ => ⟨S1x16777216, .f32⟩
  | .hbm, ⟨33, _⟩ => ⟨S_, .f32⟩
  | .hbm, ⟨34, _⟩ => ⟨S1x16777216, .f32⟩
  | .hbm, ⟨35, _⟩ => ⟨S1x16777216, .f32⟩
  | .hbm, ⟨36, _⟩ => ⟨S_, .f32⟩
  | .hbm, ⟨37, _⟩ => ⟨S1x16777216, .f32⟩
  | .hbm, ⟨38, _⟩ => ⟨S1x16777216, .f32⟩
  | .hbm, ⟨39, _⟩ => ⟨S_, .f32⟩
  | .hbm, ⟨40, _⟩ => ⟨S1x16777216, .f32⟩
  | .hbm, ⟨41, _⟩ => ⟨S1x16777216, .f32⟩
  | .hbm, ⟨42, _⟩ => ⟨S1x16777216, .f32⟩
  | .hbm, ⟨43, _⟩ => ⟨S_, .f32⟩
  | .hbm, ⟨44, _⟩ => ⟨S1x16777216, .f32⟩
  | .hbm, ⟨45, _⟩ => ⟨S1x16777216, .i1⟩
  | .hbm, ⟨46, _⟩ => ⟨S1x16777216, .f32⟩
  | .hbm, ⟨47, _⟩ => ⟨S_, .f32⟩
  | .hbm, ⟨48, _⟩ => ⟨S1x16777216, .f32⟩
  | .hbm, ⟨49, _⟩ => ⟨S1x16777216, .f32⟩
  | .hbm, ⟨50, _⟩ => ⟨S1x16777216, .f32⟩
  | .hbm, ⟨51, _⟩ => ⟨S1x16777216, .f32⟩
  | .hbm, ⟨52, _⟩ => ⟨S1x16777216, .f32⟩
  | .hbm, ⟨53, _⟩ => ⟨S_, .f32⟩
  | .hbm, ⟨54, _⟩ => ⟨S1x16777216, .f32⟩
  | .hbm, ⟨55, _⟩ => ⟨S1x16777216, .f32⟩
  | .hbm, ⟨56, _⟩ => ⟨S_, .f32⟩
  | .hbm, ⟨57, _⟩ => ⟨S1x16777216, .f32⟩
  | .hbm, ⟨58, _⟩ => ⟨S1x16777216, .f32⟩
  | .hbm, ⟨59, _⟩ => ⟨S_, .f32⟩
  | .hbm, ⟨60, _⟩ => ⟨S1x16777216, .f32⟩
  | .hbm, ⟨61, _⟩ => ⟨S1x16777216, .f32⟩
  | .hbm, ⟨62, _⟩ => ⟨S1x16777216, .f32⟩
  | .hbm, ⟨63, _⟩ => ⟨S_, .f32⟩
  | .hbm, ⟨64, _⟩ => ⟨S1x16777216, .f32⟩
  | .hbm, ⟨65, _⟩ => ⟨S1x16777216, .i1⟩
  | .hbm, ⟨66, _⟩ => ⟨S_, .f32⟩
  | .hbm, ⟨67, _⟩ => ⟨S1x16777216, .f32⟩
  | .hbm, ⟨68, _⟩ => ⟨S1x16777216, .i1⟩
  | .hbm, ⟨69, _⟩ => ⟨S_, .f32⟩
  | .hbm, ⟨70, _⟩ => ⟨S_, .f32⟩
  | .hbm, ⟨71, _⟩ => ⟨S1x16777216, .f32⟩
  | .hbm, ⟨72, _⟩ => ⟨S1x16777216, .f32⟩
  | .hbm, ⟨73, _⟩ => ⟨S1x16777216, .f32⟩
  | .hbm, ⟨74, _⟩ => ⟨S_, .f32⟩
  | .hbm, ⟨75, _⟩ => ⟨S1x16777216, .f32⟩
  | .hbm, ⟨76, _⟩ => ⟨S1x16777216, .i1⟩
  | .hbm, ⟨77, _⟩ => ⟨S1x16777216, .f32⟩
  | _, _ => ⟨S1x16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_cst_16 : Ref sig .tc := ⟨.hbm, 69, rfl⟩
abbrev main_call3_v0 : Ref sig .tc := ⟨.hbm, 70, rfl⟩
abbrev main_call3_v1 : Ref sig .tc := ⟨.hbm, 71, rfl⟩
abbrev main_v49 : Ref sig .tc := ⟨.hbm, 72, rfl⟩
abbrev main_v50 : Ref sig .tc := ⟨.hbm, 73, rfl⟩
abbrev main_cst_17 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  bcast_S_S1x16777216 : S_.BroadcastsInDim S1x16777216 (![] : Fin 0 → Fin S1x16777216.rank)

variable [Facts₀]

class Facts : Prop extends Facts₀ where

variable [Facts]
-- ==== Proof.Spec.lean ====
/-
  The three elementwise functions the certificate is about, written once over any float instance.

  With SPU(z) = z² − ½ for z ≥ 0 and σ(−z) − 1 for z < 0 (σ the logistic function), a box [l, u] is carried to
    · the point image        SPU(x),
    · the lower bound        SPU(l) if l ≥ 0, else SPU(u) if u ≤ 0, else −½   (the minimum of SPU, attained at 0),
    · the upper bound        SPU(l) if u ≤ 0, else SPU(u).
  The kernel spells σ(−z) as the logistic operation applied to 0 − z; the host program spells it 1 / (1 + exp(−(−z))).
  On the extended reals the logistic function IS 1 / (1 + exp(−·)), 0 − z is −z, and the word 0x3F800000 denotes 1, so the
  two spellings are one function there, at every value, the infinities included: no finiteness is used.
-/
import Idealize.ShloMosaic.PureOps.Ideal.Laws
import Idealize.ShloMosaic.Lib.Pipeline.Value

noncomputable section

namespace Cert.BoxSpu

open Idealize.ShloMosaic

variable {F : FTy → Type} [FloatOps F]

/-- SPU(z): z² − ½ where z ≥ 0, logistic(0 − z) − 1 elsewhere. -/
def spu (z : F .f32) : F .f32 :=
  Scalar.select (FloatOps.cmpf .oge z (Scalar.ofBits .f32 0x00000000#32))
    (FloatOps.subf (FloatOps.mulf z z) (Scalar.ofBits .f32 0x3F000000#32))
    (FloatOps.subf (FloatOps.logistic (FloatOps.subf (Scalar.ofBits .f32 0x00000000#32) z)) (Scalar.ofBits .f32 0x3F800000#32))

/-- The lower bound of SPU over [l, u]: SPU(l) when the box is right of 0, SPU(u) when it is left of 0, else −½. -/
def lowerBound (l u : F .f32) : F .f32 :=
  Scalar.select (FloatOps.cmpf .oge l (Scalar.ofBits .f32 0x00000000#32)) (spu l)
    (Scalar.select (FloatOps.cmpf .ole u (Scalar.ofBits .f32 0x00000000#32)) (spu u) (Scalar.ofBits .f32 0xBF000000#32))

/-- The upper bound of SPU over [l, u]: SPU(l) when the box is left of 0, else SPU(u). -/
def upperBound (l u : F .f32) : F .f32 :=
  Scalar.select (FloatOps.cmpf .ole u (Scalar.ofBits .f32 0x00000000#32)) (spu l) (spu u)

/-- The word 0x3F800000 denotes the real number 1. -/
theorem one_f32 : Ideal.ofBits .f32 0x3F800000#32 = 1 := by
  simp [Ideal.ofBits, Ideal.ieee, -EReal.coe_mul]
  norm_num

/-- The host's expansion 1 / (1 + exp(−(−z))) is the logistic function at 0 − z, on every extended real. -/
theorem logistic_host (z : Ideal .f32) :
    FloatOps.hostDivf (FloatOps.ofBits (F := Ideal) .f32 0x3F800000#32)
        (FloatOps.addf (FloatOps.ofBits (F := Ideal) .f32 0x3F800000#32)
          (FloatOps.hostUnary .exp (FloatOps.hostNegf (FloatOps.hostNegf z))))
      = FloatOps.logistic (FloatOps.subf (FloatOps.ofBits (F := Ideal) .f32 0x00000000#32) z) := by
  show Ideal.div (Ideal.ofBits .f32 0x3F800000#32) (Ideal.ofBits .f32 0x3F800000#32 + Ideal.exp (-(-(z : EReal))))
      = Ideal.logistic (Ideal.ofBits .f32 0x00000000#32 - (z : EReal))
  rw [one_f32, Ideal.ofBits_zero_f32, zero_sub]
  rfl

/-- SPU in the host's spelling. -/
theorem spu_host (z : Ideal .f32) :
    Scalar.select (FloatOps.cmpf .oge z (FloatOps.ofBits (F := Ideal) .f32 0x00000000#32))
        (FloatOps.subf (FloatOps.mulf z z) (FloatOps.ofBits (F := Ideal) .f32 0x3F000000#32))
        (FloatOps.subf
          (FloatOps.hostDivf (FloatOps.ofBits (F := Ideal) .f32 0x3F800000#32)
            (FloatOps.addf (FloatOps.ofBits (F := Ideal) .f32 0x3F800000#32)
              (FloatOps.hostUnary .exp (FloatOps.hostNegf (FloatOps.hostNegf z)))))
          (FloatOps.ofBits (F := Ideal) .f32 0x3F800000#32))
      = spu z := by
  rw [logistic_host]
  rfl

end Cert.BoxSpu

end
-- ==== Proof.KernelArrays.lean ====
/-
  What the kernel program leaves in its three results, as functions of its three arguments.

  The kernel walks the [131072, 128] re-layout of each argument in 32 row blocks of 4096 rows; at block t it reads
  rows 4096·t … 4096·t + 4095 of the three operands and writes the same rows of the three outputs, each output entry a
  function of the operand entries AT THE SAME POSITION: SPU of the first operand, the lower and the upper bound of the
  second and third (`Spec.lean`). So every write-back is a block of one whole-array function (the block of the output
  and the blocks of the operands sit at the same rows), the 32 blocks cover the array (row r is in block r / 4096), and
  each output array ends as that function of the operand arrays. The operands are the arguments re-laid row-major to
  [131072, 128] and the results are the outputs re-laid back to [1, 16777216]; a pointwise function commutes with a
  re-layout and the two re-layouts cancel, so each result is the pointwise function of the arguments themselves.
-/
import proofs.«111127_j79259326480985_1_alg».proof.Proof.Gen.KernelIdeal.Frame
import proofs.«111127_j79259326480985_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.BoxSpu

variable {F : FTy → Type} [FloatOps F]
variable (m : (ℓ : Loc nD τ sig) → Buf (Elt F) ℓ) (ρ : Dev nD → PrngReg)

/-! ## The body's three stored values, entry by entry -/

theorem zero_offset : (![0, 0] : Fin 2 → Nat) = fun _ => 0 := funext fun a => by fin_cases a <;> rfl

/-- The value stored to the first output is SPU of the first operand's block, entry by entry. -/
theorem point_payload (x : Vec F S4096x128 .f32) : k0_pay5 x = fun j => spu (x j) := by
  funext j
  show spu (shapeCast S4096x128 x shapeCasts_S4096x128_S4096x128 j) = _
  rw [shapeCast_self]

/-- The value stored to the second output is the lower bound of the second and third operands' blocks. -/
theorem lower_payload (x1 x2 : Vec F S4096x128 .f32) :
    k0_pay1 (k0_pay3 x1) (k0_pay4 x2) (k0_pay6 x1) (k0_pay7 x2) (k0_pay8 (F := F)) = fun j => lowerBound (x1 j) (x2 j) := by
  funext j
  show lowerBound (shapeCast S4096x128 x1 shapeCasts_S4096x128_S4096x128 j) (shapeCast S4096x128 x2 shapeCasts_S4096x128_S4096x128 j) = _
  rw [shapeCast_self, shapeCast_self]

/-- The value stored to the third output is the upper bound of the second and third operands' blocks. -/
theorem upper_payload (x1 x2 : Vec F S4096x128 .f32) :
    k0_pay2 (k0_pay4 x2) (k0_pay6 x1) (k0_pay7 x2) = fun j => upperBound (x1 j) (x2 j) := by
  funext j
  show upperBound (shapeCast S4096x128 x1 shapeCasts_S4096x128_S4096x128 j) (shapeCast S4096x128 x2 shapeCasts_S4096x128_S4096x128 j) = _
  rw [shapeCast_self, shapeCast_self]

/-! ## The three whole-array functions -/

abbrev pointArr (a : S131072x128.Idx → Elt F .f32) : S131072x128.Idx → Elt F .f32 := fun i => spu (a i)
abbrev lowerArr (l u : S131072x128.Idx → Elt F .f32) : S131072x128.Idx → Elt F .f32 := fun i => lowerBound (l i) (u i)
abbrev upperArr (l u : S131072x128.Idx → Elt F .f32) : S131072x128.Idx → Elt F .f32 := fun i => upperBound (l i) (u i)

/-- Every window's block at point t is row block t, column block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## First output -/

theorem flushed_point (c : Dev nD) (t : Fin cfg0.N) :
    (dats m 0 c).flushed 3 t = ((cfg0.win 3).blk t).view.read (Elt F) (pointArr (V m c main_v0)) := by
  show (cfg0.win 3).cut (grid0.coords t) ((dats m 0 c).after 3 t) = _
  rw [after0_3]
  unfold out0_3
  rw [View.canon_unit_zero zero_offset]
  simp only [View.ld_unit_zero (S := S4096x128) zero_offset]
  rw [point_payload]
  obtain ⟨a0, b0, -, -, -, -, a3, b3, -, -, -, -⟩ := block_index t
  funext j
  show spu (V m c main_v0 (((cfg0.win 0).blk t).view.emb j)) = spu (V m c main_v0 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 4096 + 1 * (j 0).val = win0_3.index t (0 : Fin 2) * 4096 + 1 * (j 0).val; rw [a0, a3]
    | ⟨1, _⟩ => show win0_0.index t (1 : Fin 2) * 128 + 1 * (j 1).val = win0_3.index t (1 : Fin 2) * 128 + 1 * (j 1).val; rw [b0, b3]
  rw [h0]

/-- An index of the first output is in point t's block iff each coordinate is in the block's range on its axis. -/
theorem mem_block_point (t : Fin cfg0.N) (i : S131072x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v3_0).slice (win0_3.rect t)).set ↔ _
  rw [View.set_slice_whole, Rect.mem_set_unit]
  exact Iff.rfl

/-- Row r of the first output is written back by point r / 4096. -/
theorem cover_point (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  have hN : cfg0.N = 32 := N_0
  refine ⟨⟨(i 0).val / 4096, by rw [hN]; omega⟩, flush0_3 _, ?_⟩
  rw [mem_block_point]
  obtain ⟨-, -, -, -, -, -, a3, b3, -, -, -, -⟩ := block_index ⟨(i 0).val / 4096, by rw [hN]; omega⟩
  intro a
  match a with
  | ⟨0, _⟩ => show win0_3.index _ (0 : Fin 2) * 4096 ≤ (i 0).val ∧ (i 0).val < win0_3.index _ (0 : Fin 2) * 4096 + 4096; rw [a3]; show (i 0).val / 4096 * 4096 ≤ (i 0).val ∧ (i 0).val < (i 0).val / 4096 * 4096 + 4096; omega
  | ⟨1, _⟩ => show win0_3.index _ (1 : Fin 2) * 128 ≤ (i 1).val ∧ (i 1).val < win0_3.index _ (1 : Fin 2) * 128 + 128; rw [b3]; omega

/-- The first output array after the run: SPU of the first operand array, entry by entry. -/
theorem final_point (c : Dev nD) : (dats m 0 c).arrAt 3 cfg0.N = pointArr (V m c main_v0) :=
  (dats m 0 c).arrAt_eq_of_cover 3 (pointArr (V m c main_v0)) (fun t _ => flushed_point m c t) (fun i => cover_point i)

/-! ## Second output -/

theorem flushed_lower (c : Dev nD) (t : Fin cfg0.N) :
    (dats m 0 c).flushed 4 t = ((cfg0.win 4).blk t).view.read (Elt F) (lowerArr (V m c main_v1) (V m c main_v2)) := by
  show (cfg0.win 4).cut (grid0.coords t) ((dats m 0 c).after 4 t) = _
  rw [after0_4]
  unfold out0_4
  rw [View.canon_unit_zero zero_offset]
  simp only [View.ld_unit_zero (S := S4096x128) zero_offset]
  rw [lower_payload]
  obtain ⟨-, -, a1, b1, a2, b2, -, -, a4, b4, -, -⟩ := block_index t
  funext j
  show lowerBound (V m c main_v1 (((cfg0.win 1).blk t).view.emb j)) (V m c main_v2 (((cfg0.win 2).blk t).view.emb j))
    = lowerBound (V m c main_v1 (((cfg0.win 4).blk t).view.emb j)) (V m c main_v2 (((cfg0.win 4).blk t).view.emb j))
  have h1 : ((cfg0.win 1).blk t).view.emb j = ((cfg0.win 4).blk t).view.emb j := by
    funext a; apply Fin.ext
    match a with
    | ⟨0, _⟩ => show win0_1.index t (0 : Fin 2) * 4096 + 1 * (j 0).val = win0_4.index t (0 : Fin 2) * 4096 + 1 * (j 0).val; rw [a1, a4]
    | ⟨1, _⟩ => show win0_1.index t (1 : Fin 2) * 128 + 1 * (j 1).val = win0_4.index t (1 : Fin 2) * 128 + 1 * (j 1).val; rw [b1, b4]
  have h2 : ((cfg0.win 2).blk t).view.emb j = ((cfg0.win 4).blk t).view.emb j := by
    funext a; apply Fin.ext
    match a with
    | ⟨0, _⟩ => show win0_2.index t (0 : Fin 2) * 4096 + 1 * (j 0).val = win0_4.index t (0 : Fin 2) * 4096 + 1 * (j 0).val; rw [a2, a4]
    | ⟨1, _⟩ => show win0_2.index t (1 : Fin 2) * 128 + 1 * (j 1).val = win0_4.index t (1 : Fin 2) * 128 + 1 * (j 1).val; rw [b2, b4]
  rw [h1, h2]

theorem mem_block_lower (t : Fin cfg0.N) (i : S131072x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v3_1).slice (win0_4.rect t)).set ↔ _
  rw [View.set_slice_whole, Rect.mem_set_unit]
  exact Iff.rfl

theorem cover_lower (i : S131072x128.Idx) :
    ∃ t : Fin cfg0.N, (cfg0.win 4).flush t = true ∧ i ∈ ((cfg0.win 4).blk t).view.set := by
  have hi0 : (i 0).val < 131072 := (i 0).isLt
  have hi1 : (i 1).val < 128 := (i 1).isLt
  have hN : cfg0.N = 32 := N_0
  refine ⟨⟨(i 0).val / 4096, by rw [hN]; omega⟩, flush0_4 _, ?_⟩
  rw [mem_block_lower]
  obtain ⟨-, -, -, -, -, -, -, -, a4, b4, -, -⟩ := block_index ⟨(i 0).val / 4096, by rw [hN]; omega⟩
  intro a
  match a with
  | ⟨0, _⟩ => show win0_4.index _ (0 : Fin 2) * 4096 ≤ (i 0).val ∧ (i 0).val < win0_4.index _ (0 : Fin 2) * 4096 + 4096; rw [a4]; show (i 0).val / 4096 * 4096 ≤ (i 0).val ∧ (i 0).val < (i 0).val / 4096 * 4096 + 4096; omega
  | ⟨1, _⟩ => show win0_4.index _ (1 : Fin 2) * 128 ≤ (i 1).val ∧ (i 1).val < win0_4.index _ (1 : Fin 2) * 128 + 128; rw [b4]; omega

/-- The second output array after the run: the lower bound of the second and third operand arrays. -/
theorem final_lower (c : Dev nD) : (dats m 0 c).arrAt 4 cfg0.N = lowerArr (V m c main_v1) (V m c main_v2) :=
  (dats m 0 c).arrAt_eq_of_cover 4 (lowerArr (V m c main_v1) (V m c main_v2)) (fun t _ => flushed_lower m c t) (fun i => cover_lower i)

/-! ## Third output -/

theorem flushed_upper (c : Dev nD) (t : Fin cfg0.N) :
    (dats m 0 c).flushed 5 t = ((cfg0.win 5).blk t).view.read (Elt F) (upperArr (V m c main_v1) (V m c main_v2)) := by
  show (cfg0.win 5).cut (grid0.coords t) ((dats m 0 c).after 5 t) = _
  rw [after0_5]
  unfold out0_5
  rw [View.canon_unit_zero zero_offset]
  simp only [View.ld_unit_zero (S := S4096x128) zero_offset]
  rw [upper_payload]
  obtain ⟨-, -, a1, b1, a2, b2, -, -, -, -, a5, b5⟩ := block_index t
  funext j
  show upperBound (V m c main_v1 (((cfg0.win 1).blk t).view.emb j)) (V m c main_v2 (((cfg0.win 2).blk t).view.emb j))
    = upperBound (V m c main_v1 (((cfg0.win 5).blk t).view.emb j)) (V m c main_v2 (((cfg0.win 5).blk t).view.emb j))
  have h1 : ((cfg0.win 1).blk t).view.emb j = ((cfg0.win 5).blk t).view.emb j := by
    funext a; apply Fin.ext
    match a with
    | ⟨0, _⟩ => show win0_1.index t (0 : Fin 2) * 4096 + 1 * (j 0).val = win0_5.index t (0 : Fin 2) * 4096 + 1 * (j 0).val; rw [a1, a5]
    | ⟨1, _⟩ => show win0_1.index t (1 : Fin 2) * 128 + 1 * (j 1).val = win0_5.index t (1 : Fin 2) * 128 + 1 * (j 1).val; rw [b1, b5]
  have h2 : ((cfg0.win 2).blk t).view.emb j = ((cfg0.win 5).blk t).view.emb j := by
    funext a; apply Fin.ext
    match a with
    | ⟨0, _⟩ => show win0_2.index t (0 : Fin 2) * 4096 + 1 * (j 0).val = win0_5.index t (0 : Fin 2) * 4096 + 1 * (j 0).val; rw [a2, a5]
    | ⟨1, _⟩ => show win0_2.index t (1 : Fin 2) * 128 + 1 * (j 1).val = win0_5.index t (1 : Fin 2) * 128 + 1 * (j 1).val; rw [b2, b5]
  rw [h1, h2]

theorem mem_block_upper (t : Fin cfg0.N) (i : S131072x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v3_2).slice (win0_5.rect t)).set ↔ _
  rw [View.set_slice_whole, Rect.mem_set_unit]
  exact Iff.rfl

theorem cover_upper (i : S131072x128.Idx) :
    ∃ t : Fin cfg0.N, (cfg0.win 5).flush t = true ∧ i ∈ ((cfg0.win 5).blk t).view.set := by
  have hi0 : (i 0).val < 131072 := (i 0).isLt
  have hi1 : (i 1).val < 128 := (i 1).isLt
  have hN : cfg0.N = 32 := N_0
  refine ⟨⟨(i 0).val / 4096, by rw [hN]; omega⟩, flush0_5 _, ?_⟩
  rw [mem_block_upper]
  obtain ⟨-, -, -, -, -, -, -, -, -, -, a5, b5⟩ := block_index ⟨(i 0).val / 4096, by rw [hN]; omega⟩
  intro a
  match a with
  | ⟨0, _⟩ => show win0_5.index _ (0 : Fin 2) * 4096 ≤ (i 0).val ∧ (i 0).val < win0_5.index _ (0 : Fin 2) * 4096 + 4096; rw [a5]; show (i 0).val / 4096 * 4096 ≤ (i 0).val ∧ (i 0).val < (i 0).val / 4096 * 4096 + 4096; omega
  | ⟨1, _⟩ => show win0_5.index _ (1 : Fin 2) * 128 ≤ (i 1).val ∧ (i 1).val < win0_5.index _ (1 : Fin 2) * 128 + 128; rw [b5]; omega

/-- The third output array after the run: the upper bound of the second and third operand arrays. -/
theorem final_upper (c : Dev nD) : (dats m 0 c).arrAt 5 cfg0.N = upperArr (V m c main_v1) (V m c main_v2) :=
  (dats m 0 c).arrAt_eq_of_cover 5 (upperArr (V m c main_v1) (V m c main_v2)) (fun t _ => flushed_upper m c t) (fun i => cover_upper i)

/-! ## The operands are the arguments re-laid, and the results the outputs re-laid back -/

/-- The three arguments as launched. -/
abbrev argX (c : Dev nD) : S1x16777216.Idx → Elt F .f32 := m ((c : Thread nD τ).loc main_arg0)
abbrev argL (c : Dev nD) : S1x16777216.Idx → Elt F .f32 := m ((c : Thread nD τ).loc main_arg1)
abbrev argU (c : Dev nD) : S1x16777216.Idx → Elt F .f32 := m ((c : Thread nD τ).loc main_arg2)

theorem operand0 (c : Dev nD) :
    (V m c main_v0 : S131072x128.Idx → Elt F .f32) = shapeCast S131072x128 (argX m c) shapeCasts_S1x16777216_S131072x128 := by
  show StableHlo.after hostOps0 (fun b => m (c, b)) (Proc.devRef .tc main_v0) = _
  after_results
  rfl

theorem operand1 (c : Dev nD) :
    (V m c main_v1 : S131072x128.Idx → Elt F .f32) = shapeCast S131072x128 (argL m c) shapeCasts_S1x16777216_S131072x128 := by
  show StableHlo.after hostOps0 (fun b => m (c, b)) (Proc.devRef .tc main_v1) = _
  after_results
  rfl

theorem operand2 (c : Dev nD) :
    (V m c main_v2 : S131072x128.Idx → Elt F .f32) = shapeCast S131072x128 (argU m c) shapeCasts_S1x16777216_S131072x128 := by
  show StableHlo.after hostOps0 (fun b => m (c, b)) (Proc.devRef .tc main_v2) = _
  after_results
  rfl

/-- The first result: the first output re-laid to [1, 16777216], which is SPU of the first argument entry by entry (a
    pointwise function commutes with the re-layout, and the re-layout there and back is the identity). -/
theorem result_point (c : Dev nD) :
    Pipeline.afterTail₀ cfgs (dats m) 0 (V0 m) [hostOps1] c main_v4 = (fun i => spu (argX m c i) : S1x16777216.Idx → Elt F .f32) := by
  have e : Pipeline.withArrays (cfgs 0).spec c (V0 m c) (fun w => (dats m 0 c).arrAt w (cfgs 0).N) (Proc.devRef .tc main_v3_0)
      = pointArr (V m c main_v0) :=
    (Pipeline.withArrays_arr spec0 launch0.win.arr_inj c _ _ 3).trans (final_point m c)
  unfold Pipeline.afterTail₀
  show StableHlo.after hostOps1 _ (Proc.devRef .tc main_v4) = _
  after_results
  rw [e, operand0]
  funext i
  show spu (shapeCast S1x16777216 (shapeCast S131072x128 (argX m c) shapeCasts_S1x16777216_S131072x128) shapeCasts_S131072x128_S1x16777216 i) = _
  rw [shapeCast_shapeCast]

/-- The second result: the lower bound of the second and third arguments entry by entry. -/
theorem result_lower (c : Dev nD) :
    Pipeline.afterTail₀ cfgs (dats m) 0 (V0 m) [hostOps1] c main_v5 = (fun i => lowerBound (argL m c i) (argU m c i) : S1x16777216.Idx → Elt F .f32) := by
  have e : Pipeline.withArrays (cfgs 0).spec c (V0 m c) (fun w => (dats m 0 c).arrAt w (cfgs 0).N) (Proc.devRef .tc main_v3_1)
      = lowerArr (V m c main_v1) (V m c main_v2) :=
    (Pipeline.withArrays_arr spec0 launch0.win.arr_inj c _ _ 4).trans (final_lower m c)
  unfold Pipeline.afterTail₀
  show StableHlo.after hostOps1 _ (Proc.devRef .tc main_v5) = _
  after_results
  rw [e, operand1, operand2]
  funext i
  show lowerBound (shapeCast S1x16777216 (shapeCast S131072x128 (argL m c) shapeCasts_S1x16777216_S131072x128) shapeCasts_S131072x128_S1x16777216 i)
      (shapeCast S1x16777216 (shapeCast S131072x128 (argU m c) shapeCasts_S1x16777216_S131072x128) shapeCasts_S131072x128_S1x16777216 i) = _
  rw [shapeCast_shapeCast, shapeCast_shapeCast]

/-- The third result: the upper bound of the second and third arguments entry by entry. -/
theorem result_upper (c : Dev nD) :
    Pipeline.afterTail₀ cfgs (dats m) 0 (V0 m) [hostOps1] c main_v6 = (fun i => upperBound (argL m c i) (argU m c i) : S1x16777216.Idx → Elt F .f32) := by
  have e : Pipeline.withArrays (cfgs 0).spec c (V0 m c) (fun w => (dats m 0 c).arrAt w (cfgs 0).N) (Proc.devRef .tc main_v3_2)
      = upperArr (V m c main_v1) (V m c main_v2) :=
    (Pipeline.withArrays_arr spec0 launch0.win.arr_inj c _ _ 5).trans (final_upper m c)
  unfold Pipeline.afterTail₀
  show StableHlo.after hostOps1 _ (Proc.devRef .tc main_v6) = _
  after_results
  rw [e, operand1, operand2]
  funext i
  show upperBound (shapeCast S1x16777216 (shapeCast S131072x128 (argL m c) shapeCasts_S1x16777216_S131072x128) shapeCasts_S131072x128_S1x16777216 i)
      (shapeCast S1x16777216 (shapeCast S131072x128 (argU m c) shapeCasts_S1x16777216_S131072x128) shapeCasts_S131072x128_S1x16777216 i) = _
  rw [shapeCast_shapeCast, shapeCast_shapeCast]

/-! ## The run, read -/

/-- Every weakly fair execution of the kernel program terminates with its three results at SPU of the first argument and
    at the lower and upper bounds of the second and third, entry by entry, and its arguments as launched. -/
theorem run : θ_run defs (onTc (τ := τ) (main (F := F))) ⟨m, fun _ => 0, ρ⟩ fun r => ∀ c : Dev nD,
      r.2.mem ((c : Thread nD τ).loc main_v4) = (fun i => spu (argX m c i) : S1x16777216.Idx → Elt F .f32)
      ∧ r.2.mem ((c : Thread nD τ).loc main_v5) = (fun i => lowerBound (argL m c i) (argU m c i) : S1x16777216.Idx → Elt F .f32)
      ∧ r.2.mem ((c : Thread nD τ).loc main_v6) = (fun i => upperBound (argL m c i) (argU m c i) : S1x16777216.Idx → Elt F .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans (result_point m c),
      ((h c).2 main_v5 (Pipeline.mem_restRefs_of main_v5 (by decide) (by decide))).trans (result_lower m c),
      ((h c).2 main_v6 (Pipeline.mem_restRefs_of main_v6 (by decide) (by decide))).trans (result_upper m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arrays

end
-- ==== Proof.Reference.lean ====
/-
  The host program, stage by stage, is the three elementwise functions of `Spec.lean`: its point image is SPU of the
  first argument, its two bounds are `lowerBound` and `upperBound` of the second and third, index by index. Every stage
  is pointwise, so each array equation is the scalar one at every index; the only scalar fact used is that the host's
  expansion of the logistic function is the logistic function (`spu_host`).
-/
import proofs.«111127_j79259326480985_1_alg».proof.Proof.Gen.ReferenceIdeal.Read
import proofs.«111127_j79259326480985_1_alg».proof.Proof.Spec

noncomputable section

namespace Cert.ReferenceIdeal.RefValue

open Cert.ReferenceIdeal Cert.ReferenceIdeal.Read Idealize.ShloMosaic Cert.BoxSpu

/-- The first result: SPU of the first argument at every index. -/
theorem point_eq (x : FVec Ideal S1x16777216 .f32) :
    val_main_v14 (F := Ideal) x = fun i => spu (x i) := by
  funext i
  exact spu_host (x i)

/-- The stage SPU(l), shared by both bounds. -/
theorem spu_lo_eq (l : FVec Ideal S1x16777216 .f32) :
    val_main_v29 (F := Ideal) l = fun i => spu (l i) := by
  funext i
  exact spu_host (l i)

/-- The stage SPU(u), shared by both bounds. -/
theorem spu_hi_eq (u : FVec Ideal S1x16777216 .f32) :
    val_main_v44 (F := Ideal) u = fun i => spu (u i) := by
  funext i
  exact spu_host (u i)

/-- The second result: the lower bound at every index. -/
theorem lower_eq (l u : FVec Ideal S1x16777216 .f32) :
    val_main_v50 (F := Ideal) l u = fun i => lowerBound (l i) (u i) := by
  funext i
  show Scalar.select (val_main_v46 (F := Ideal) l i) (val_main_v29 (F := Ideal) l i)
      (Scalar.select (val_main_v48 (F := Ideal) u i) (val_main_v44 (F := Ideal) u i) (val_main_call3_v1 (F := Ideal) i)) = _
  rw [spu_lo_eq, spu_hi_eq]
  rfl

/-- The third result: the upper bound at every index. -/
theorem upper_eq (l u : FVec Ideal S1x16777216 .f32) :
    val_main_v53 (F := Ideal) l u = fun i => upperBound (l i) (u i) := by
  funext i
  show Scalar.select (val_main_v52 (F := Ideal) u i) (val_main_v29 (F := Ideal) l i) (val_main_v44 (F := Ideal) u i) = _
  rw [spu_lo_eq, spu_hi_eq]
  rfl

end Cert.ReferenceIdeal.RefValue

end
-- ==== Proof.lean ====
/-
  The kernel and the host program compute one elementwise map of three [1, 16777216] arrays x, l, u:
      x ↦ SPU(x),     (l, u) ↦ the lower bound of SPU over the box [l, u],     (l, u) ↦ its upper bound,
  with SPU(z) = z² − ½ for z ≥ 0 and σ(−z) − 1 for z < 0 (Proof/Spec.lean).

  The kernel re-lays each argument row-major to [131072, 128], processes 32 blocks of 4096 rows, each output entry from the
  operand entries at the same position, and re-lays the three outputs back: its results are the three functions of the
  arguments, entry by entry (Proof/KernelArrays.lean). The host program applies the same comparisons, products and
  selections to the whole arrays, spelling σ(−z) as 1 / (1 + exp(−(−z))) where the kernel applies the logistic operation
  to 0 − z; on the extended reals these are the same function at every value (Proof/Reference.lean over Proof/Spec.lean),
  so the equality of results needs no finiteness of the inputs. The idealized kernel is the kernel's own text read over the
  extended reals, no operation replaced, so the idealization claim has no conjunct. The frames of the two kernel programs are the generated ones; the host program's
  frame is its generated run with the results dropped.
-/
import proofs.«111127_j79259326480985_1_alg».proof.Defs
import proofs.«111127_j79259326480985_1_alg».proof.Proof.Gen.Kernel
import proofs.«111127_j79259326480985_1_alg».proof.Proof.Gen.Kernel.Skeleton
import proofs.«111127_j79259326480985_1_alg».proof.Proof.Gen.Kernel.Launch
import proofs.«111127_j79259326480985_1_alg».proof.Proof.Gen.Kernel.Points
import proofs.«111127_j79259326480985_1_alg».proof.Proof.Gen.Kernel.Frame
import proofs.«111127_j79259326480985_1_alg».proof.Proof.Gen.KernelIdeal
import proofs.«111127_j79259326480985_1_alg».proof.Proof.Gen.KernelIdeal.Skeleton
import proofs.«111127_j79259326480985_1_alg».proof.Proof.Gen.KernelIdeal.Launch
import proofs.«111127_j79259326480985_1_alg».proof.Proof.Gen.KernelIdeal.Points
import proofs.«111127_j79259326480985_1_alg».proof.Proof.Gen.KernelIdeal.Frame
import proofs.«111127_j79259326480985_1_alg».proof.Proof.Gen.ReferenceIdeal
import proofs.«111127_j79259326480985_1_alg».proof.Proof.Gen.ReferenceIdeal.Run
import proofs.«111127_j79259326480985_1_alg».proof.Proof.Gen.ReferenceIdeal.Read
import proofs.«111127_j79259326480985_1_alg».proof.Proof.Gen.Pre_finite_inputs
import proofs.«111127_j79259326480985_1_alg».proof.Proof.Spec
import proofs.«111127_j79259326480985_1_alg».proof.Proof.KernelArrays
import proofs.«111127_j79259326480985_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The host program's run keeps its arguments: its generated run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories agreeing on the three arguments both programs end with SPU of the first argument and the lower and upper
    bounds of the second and third, entry by entry. -/
theorem algebraic : Cert.algebraic_KernelIdeal_ReferenceIdeal := by
  intro m ρ m' ρ' _ hagree
  refine ⟨_, _, _, Cert.KernelIdeal.Arrays.run (F := Ideal) m ρ, ?_⟩
  refine (θ_run Cert.ReferenceIdeal.defs _ _).mono (fun _ h c => ?_) (Cert.ReferenceIdeal.Value.run (F := Ideal) m' ρ')
  obtain ⟨e0, e1, e2⟩ := hagree c
  refine ⟨(h c).1.trans ?_, (h c).2.1.trans ?_, (h c).2.2.1.trans ?_, (h c).2.2.2⟩
  · rw [Cert.ReferenceIdeal.Read.val_main_v14_eq, Cert.ReferenceIdeal.RefValue.point_eq, e0]
  · rw [Cert.ReferenceIdeal.Read.val_main_v50_eq, Cert.ReferenceIdeal.RefValue.lower_eq, e1, e2]
  · rw [Cert.ReferenceIdeal.Read.val_main_v53_eq, Cert.ReferenceIdeal.RefValue.upper_eq, e1, e2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
